-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S100000x512 : Shape := ⟨2, ![100000, 512]⟩
abbrev S400x512 : Shape := ⟨2, ![400, 512]⟩
abbrev S100000 : Shape := ⟨1, ![100000]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S400x512 : S_.BroadcastsInDim S400x512 (![] : Fin 0 → Fin S400x512.rank)
  reducesTo_S400x512_S_d0_1 : S400x512.ReducesTo [0, 1] S_

variable [Facts]

def fn {F : FTy → Type} [FloatOps F] (main_arg0 : FVec F S2048x512 .f32) (main_arg1 : FVec F S100000x512 .f32) (main_arg2 : FVec F S400x512 .f32) (main_arg3 : IVec S100000 32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S100000x512 .f32 := Host.absf main_arg1
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_v9 : FVec F S400x512 .f32 := Host.absf main_arg2
  let main_cst_2 : FVec F S_ .f32 := constant S_ .f32 0x7F800000#32
  let main_v10 : FVec F S400x512 .f32 := broadcastInDim S400x512 ![] bcast_S_S400x512 main_cst_2
  let main_v11 : IVec S400x512 1 := cmpf .olt main_v9 main_v10
  let main_c_3 : IVec S_ 1 := constantI S_ 1 1#1
  let main_v12 : IVec S_ 1 := (fun x v => Host.reduce IntOp.andi x v reducesTo_S400x512_S_d0_1 h_S_) main_v11 main_c_3
  let main_v13 : IVec S_ 1 := andi main_v8 main_v12
  main_v13
-- ==== Kernel.lean ====
abbrev S2048x512 : Shape := ⟨2, ![2048, 512]⟩
abbrev S100000x512 : Shape := ⟨2, ![100000, 512]⟩
abbrev S400x512 : Shape := ⟨2, ![400, 512]⟩
abbrev S100000 : Shape := ⟨1, ![100000]⟩
abbrev S100000x1 : Shape := ⟨2, ![100000, 1]⟩
abbrev S2048x400 : Shape := ⟨2, ![2048, 400]⟩
abbrev S512x512 : Shape := ⟨2, ![512, 512]⟩
abbrev S2000x512 : Shape := ⟨2, ![2000, 512]⟩
abbrev S2000x1 : Shape := ⟨2, ![2000, 1]⟩
abbrev S512x400 : Shape := ⟨2, ![512, 400]⟩
abbrev S512x2000 : Shape := ⟨2, ![512, 2000]⟩
abbrev S2000x400 : Shape := ⟨2, ![2000, 400]⟩

abbrev nBuf : Space → Nat
  | .hbm => 6
  | .vmem => 10
  | .smem => 0
  | _ => 0

abbrev bufTy : (tb : Table) → Fin (tcTables nBuf tb) → BufTy
  | .hbm, ⟨0, _⟩ => ⟨S2048x512, .f32⟩
  | .hbm, ⟨1, _⟩ => ⟨S100000x512, .f32⟩
  | .hbm, ⟨2, _⟩ => ⟨S400x512, .f32⟩
  | .hbm, ⟨3, _⟩ => ⟨S100000, .i32⟩
  | .hbm, ⟨4, _⟩ => ⟨S100000x1, .i32⟩
  | .hbm, ⟨5, _⟩ => ⟨S2048x400, .f32⟩
  | .local _ .vmem, ⟨0, _⟩ => ⟨S512x512, .f32⟩
  | .local _ .vmem, ⟨1, _⟩ => ⟨S512x512, .f32⟩
  | .local _ .vmem, ⟨2, _⟩ => ⟨S2000x512, .f32⟩
  | .local _ .vmem, ⟨3, _⟩ => ⟨S2000x512, .f32⟩
  | .local _ .vmem, ⟨4, _⟩ => ⟨S400x512, .f32⟩
  | .local _ .vmem, ⟨5, _⟩ => ⟨S2000x1, .i32⟩
  | .local _ .vmem, ⟨6, _⟩ => ⟨S2000x1, .i32⟩
  | .local _ .vmem, ⟨7, _⟩ => ⟨S512x400, .f32⟩
  | .local _ .vmem, ⟨8, _⟩ => ⟨S512x400, .f32⟩
  | .local _ .vmem, ⟨9, _⟩ => ⟨S512x400, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 50], ![false, false]⟩

def k0_cond2 (i : grid0.Coords) : BitVec 1 :=
  let arg1 : BitVec 32 := BitVec.ofNat 32 (i 1).val
  let c49_i32 : BitVec 32 := 49#32
  let v31 : BitVec 1 := Scalar.cmpi .eq arg1 c49_i32
  let v32 : BitVec 32 := Scalar.extui v31
  let c0_i32_14 : BitVec 32 := 0#32
  let v33 : BitVec 1 := Scalar.cmpi .ne v32 c0_i32_14
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S400x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x400 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S100000_S100000x1 : S100000.ShapeCasts S100000x1
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S400x512_S400x512_0_0 : ∀ a, (![0, 0] : Fin 2 → Nat) a + S400x512.size a ≤ S400x512.size a
  h_S400x512 : 0 < S400x512.numel
  transposes_S400x512_p1_0_S512x400 : S400x512.Transposes [1, 0] S512x400
  inb_S512x400_S512x400_0_0 : ∀ a, (![0, 0] : Fin 2 → Nat) a + S512x400.size a ≤ S512x400.size a
  h_S512x400 : 0 < S512x400.numel
  shapeCasts_S512x400_S512x400 : S512x400.ShapeCasts S512x400
  inb_S2000x512_S2000x512_0_0 : ∀ a, (![0, 0] : Fin 2 → Nat) a + S2000x512.size a ≤ S2000x512.size a
  h_S2000x512 : 0 < S2000x512.numel
  transposes_S2000x512_p1_0_S512x2000 : S2000x512.Transposes [1, 0] S512x2000
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x400_d1_w32 : S2000x400.Iotas .tc 32 [1]
  broadcasts_S2000x1_S2000x400 : S2000x1.Broadcasts S2000x400
  natLt_1_32 : 1 < 32
  dot_S512x512_S512x400_S512x400_1_0_0_1_n_n_wf : DotDims.WF S512x512 S512x400 S512x400 [1] [0] [0] [1] [] []
  dot_S512x512_S512x2000_S512x2000_1_0_0_1_n_n_wf : DotDims.WF S512x512 S512x2000 S512x2000 [1] [0] [0] [1] [] []
  dot_S512x2000_S2000x400_S512x400_1_0_0_1_n_n_wf : DotDims.WF S512x2000 S2000x400 S512x400 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S2048x512.size a
  hwx0_0 : ∀ i : grid0.Coords, EltTy.bits .f32 = 32 ∨ (Rect.block (s := S2048x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S100000x512.size a
  hwx0_1 : ∀ i : grid0.Coords, EltTy.bits .f32 = 32 ∨ (Rect.block (s := S100000x512) S2000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S400x512.size a ≤ S400x512.size a
  hwx0_2 : ∀ i : grid0.Coords, EltTy.bits .f32 = 32 ∨ (Rect.block (s := S400x512) S400x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S100000x1.size a
  hwx0_3 : ∀ i : grid0.Coords, EltTy.bits .i32 = 32 ∨ (Rect.block (s := S100000x1) S2000x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x400.size a ≤ S2048x400.size a
  hwx0_4 : ∀ i : grid0.Coords, EltTy.bits .f32 = 32 ∨ (Rect.block (s := S2048x400) S512x400.size (cc0_transform_4 i) (hinb0_4 i)).WholeWords (EltTy.packing .f32)

variable [Facts₀]

def dot_S512x512_S512x400_S512x400_1_0_0_1_n_n : DotDims S512x512 S512x400 S512x400 where
  lhsContracting := [1]
  rhsContracting := [0]
  lhsNonContracting := [0]
  rhsNonContracting := [1]
  lhsBatch := []
  rhsBatch := []
  wf := dot_S512x512_S512x400_S512x400_1_0_0_1_n_n_wf
def dot_S512x512_S512x2000_S512x2000_1_0_0_1_n_n : DotDims S512x512 S512x2000 S512x2000 where
  lhsContracting := [1]
  rhsContracting := [0]
  lhsNonContracting := [0]
  rhsNonContracting := [1]
  lhsBatch := []
  rhsBatch := []
  wf := dot_S512x512_S512x2000_S512x2000_1_0_0_1_n_n_wf
def dot_S512x2000_S2000x400_S512x400_1_0_0_1_n_n : DotDims S512x2000 S2000x400 S512x400 where
  lhsContracting := [1]
  rhsContracting := [0]
  lhsNonContracting := [0]
  rhsNonContracting := [1]
  lhsBatch := []
  rhsBatch := []
  wf := dot_S512x2000_S2000x400_S512x400_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S400x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x400.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2048x512 : Shape := ⟨2, ![2048, 512]⟩
abbrev S100000x512 : Shape := ⟨2, ![100000, 512]⟩
abbrev S400x512 : Shape := ⟨2, ![400, 512]⟩
abbrev S100000 : Shape := ⟨1, ![100000]⟩
abbrev S100000x1 : Shape := ⟨2, ![100000, 1]⟩
abbrev S1x400 : Shape := ⟨2, ![1, 400]⟩
abbrev S100000x400 : Shape := ⟨2, ![100000, 400]⟩
abbrev S512x100000 : Shape := ⟨2, ![512, 100000]⟩
abbrev S2048x100000 : Shape := ⟨2, ![2048, 100000]⟩
abbrev S_ : Shape := ⟨0, ![]⟩
abbrev S2048x400 : Shape := ⟨2, ![2048, 400]⟩
abbrev S512x400 : Shape := ⟨2, ![512, 400]⟩

abbrev nBuf : Space → Nat
  | .hbm => 29
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S100000x512, .f32⟩
  | .hbm, ⟨2, _⟩ => ⟨S400x512, .f32⟩
  | .hbm, ⟨3, _⟩ => ⟨S100000, .i32⟩
  | .hbm, ⟨4, _⟩ => ⟨S100000x1, .i32⟩
  | .hbm, ⟨5, _⟩ => ⟨S1x400, .i32⟩
  | .hbm, ⟨6, _⟩ => ⟨S100000x400, .i32⟩
  | .hbm, ⟨7, _⟩ => ⟨S100000x400, .i32⟩
  | .hbm, ⟨8, _⟩ => ⟨S100000x400, .i1⟩
  | .hbm, ⟨9, _⟩ => ⟨S100000x400, .f32⟩
  | .hbm, ⟨10, _⟩ => ⟨S512x100000, .f32⟩
  | .hbm, ⟨11, _⟩ => ⟨S2048x100000, .f32⟩
  | .hbm, ⟨12, _⟩ => ⟨S_, .f32⟩
  | .hbm, ⟨13, _⟩ => ⟨S2048x100000, .f32⟩
  | .hbm, ⟨14, _⟩ => ⟨S2048x100000, .f32⟩
  | .hbm, ⟨15, _⟩ => ⟨S_, .f32⟩
  | .hbm, ⟨16, _⟩ => ⟨S2048x100000, .f32⟩
  | .hbm, ⟨17, _⟩ => ⟨S2048x100000, .f32⟩
  | .hbm, ⟨18, _⟩ => ⟨S2048x100000, .f32⟩
  | .hbm, ⟨19, _⟩ => ⟨S2048x400, .f32⟩
  | .hbm, ⟨20, _⟩ => ⟨S512x400, .f32⟩
  | .hbm, ⟨21, _⟩ => ⟨S2048x400, .f32⟩
  | .hbm, ⟨22, _⟩ => ⟨S_, .f32⟩
  | .hbm, ⟨23, _⟩ => ⟨S2048x400, .f32⟩
  | .hbm, ⟨24, _⟩ => ⟨S2048x400, .f32⟩
  | .hbm, ⟨25, _⟩ => ⟨S_, .f32⟩
  | .hbm, ⟨26, _⟩ => ⟨S2048x400, .f32⟩
  | .hbm, ⟨27, _⟩ => ⟨S2048x400, .f32⟩
  | .hbm, ⟨28, _⟩ => ⟨S2048x400, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩

abbrev nD : Nat := 1
abbrev τ : Topo := Topo.v7x

variable {F : FTy → Type} [FloatOps F]

class Facts₀ : Prop where
  bcast_S100000_S100000x1_0 : S100000.BroadcastsInDim S100000x1 (![0] : Fin 1 → Fin S100000x1.rank)
  bcast_S100000x1_S100000x400_0_1 : S100000x1.BroadcastsInDim S100000x400 (![0, 1] : Fin 2 → Fin S100000x400.rank)
  bcast_S1x400_S100000x400_0_1 : S1x400.BroadcastsInDim S100000x400 (![0, 1] : Fin 2 → Fin S100000x400.rank)
  transposes_S100000x512_S512x100000_1_0 : S100000x512.Transposes [1, 0] S512x100000
  bcast_S_S2048x100000 : S_.BroadcastsInDim S2048x100000 (![] : Fin 0 → Fin S2048x100000.rank)
  transposes_S400x512_S512x400_1_0 : S400x512.Transposes [1, 0] S512x400
  bcast_S_S2048x400 : S_.BroadcastsInDim S2048x400 (![] : Fin 0 → Fin S2048x400.rank)
  dot_S2048x512_S512x100000_S2048x100000_1_0_0_1_n_n_wf : DotDims.WF S2048x512 S512x100000 S2048x100000 [1] [0] [0] [1] [] []
  dot_S2048x100000_S100000x400_S2048x400_1_0_0_1_n_n_wf : DotDims.WF S2048x100000 S100000x400 S2048x400 [1] [0] [0] [1] [] []
  dot_S2048x512_S512x400_S2048x400_1_0_0_1_n_n_wf : DotDims.WF S2048x512 S512x400 S2048x400 [1] [0] [0] [1] [] []

variable [Facts₀]

def dot_S2048x512_S512x100000_S2048x100000_1_0_0_1_n_n : DotDims S2048x512 S512x100000 S2048x100000 where
  lhsContracting := [1]
  rhsContracting := [0]
  lhsNonContracting := [0]
  rhsNonContracting := [1]
  lhsBatch := []
  rhsBatch := []
  wf := dot_S2048x512_S512x100000_S2048x100000_1_0_0_1_n_n_wf
def dot_S2048x100000_S100000x400_S2048x400_1_0_0_1_n_n : DotDims S2048x100000 S100000x400 S2048x400 where
  lhsContracting := [1]
  rhsContracting := [0]
  lhsNonContracting := [0]
  rhsNonContracting := [1]
  lhsBatch := []
  rhsBatch := []
  wf := dot_S2048x100000_S100000x400_S2048x400_1_0_0_1_n_n_wf
def dot_S2048x512_S512x400_S2048x400_1_0_0_1_n_n : DotDims S2048x512 S512x400 S2048x400 where
  lhsContracting := [1]
  rhsContracting := [0]
  lhsNonContracting := [0]
  rhsNonContracting := [1]
  lhsBatch := []
  rhsBatch := []
  wf := dot_S2048x512_S512x400_S2048x400_1_0_0_1_n_n_wf

class Facts : Prop extends Facts₀ where

variable [Facts]
-- ==== Proof.Pieces.lean ====
/-
  What one grid step leaves behind, read as values.

  The body keeps a running block of logits in a scratch buffer.  At the first step of a row tile it stores the text
  logits there (`k0_pay1` of the query block and the text block), reads them back, and stores them again with the
  first support tile's contribution added (`k0_pay2`).  At every later step it reads the running block and stores
  it with that step's support tile added.  At the last step of the row tile it also copies the running block, as
  just stored, into the output block.  Each store covers its whole buffer, so what a buffer holds afterwards is
  the payload of the last store into it, and a read that follows a store sees that store's payload.
-/
import proofs.«145298_j42107859370333_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Step

open Cert.KernelIdeal Cert.KernelIdeal.Gen

variable {F : FTy → Type} [FloatOps F]

/-- Every load and store of the body starts at the origin of its buffer. -/
theorem hz : (![0, 0] : Fin 2 → Nat) = fun _ => 0 := funext fun a => by fin_cases a <;> rfl

/-- First step of a row tile: the scratch ends at the text logits with the first support tile added. -/
theorem scratch_first (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S400x512 .f32) (harg4 : arg4.IsWhole) (arg5 : Memref sig .tc .vmem S2000x1 .i32) (harg5 : arg5.IsWhole) (arg6 : Memref sig .tc .vmem S512x400 .f32) (harg6 : arg6.IsWhole) (arg7 : Memref sig .tc .vmem S512x400 .f32) (harg7 : arg7.IsWhole) (hc0 : cond0_0 i) (hc1 : ¬cond0_1 i)
    (x0 : Vec F S512x512 .f32) (x1 : Vec F S2000x512 .f32) (x2 : Vec F S400x512 .f32) (x3 : Vec F S2000x1 .i32) :
    sout0_A_0 c i arg2 harg2 arg3 harg3 arg4 harg4 arg5 harg5 arg6 harg6 arg7 harg7 hc0 hc1 x0 x1 x2 x3 = k0_pay2 x0 x1 x3 (k0_pay1 x0 x2) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S512x400) hz, View.readCov_unit_zero (S := S512x400) _ hz]
  simp only [View.readAt_eq_ld, harg2.read_unread, harg3.read_unread, harg4.read_unread, harg5.read_unread, harg7.read_unread,
    View.ld_unit_zero (S := S512x512) hz, View.ld_unit_zero (S := S2000x512) hz, View.ld_unit_zero (S := S400x512) hz,
    View.ld_unit_zero (S := S2000x1) hz, View.ld_unit_zero (S := S512x400) hz]

/-- A middle step: the scratch ends at what it held with this step's support tile added. -/
theorem scratch_middle (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S400x512 .f32) (harg4 : arg4.IsWhole) (arg5 : Memref sig .tc .vmem S2000x1 .i32) (harg5 : arg5.IsWhole) (arg6 : Memref sig .tc .vmem S512x400 .f32) (harg6 : arg6.IsWhole) (arg7 : Memref sig .tc .vmem S512x400 .f32) (harg7 : arg7.IsWhole) (hc0 : ¬cond0_0 i) (hc1 : ¬cond0_1 i)
    (x0 : Vec F S512x512 .f32) (x1 : Vec F S2000x512 .f32) (x2 : Vec F S400x512 .f32) (x3 : Vec F S2000x1 .i32) (acc : Vec F S512x400 .f32) :
    sout0_B_0 c i arg2 harg2 arg3 harg3 arg4 harg4 arg5 harg5 arg6 harg6 arg7 harg7 hc0 hc1 x0 x1 x2 x3 acc = k0_pay2 x0 x1 x3 acc := by
  unfold sout0_B_0
  rw [View.read_writes_eq_canon _ _ _ (scover0_B_0 c i arg2 harg2 arg3 harg3 arg4 harg4 arg5 harg5 arg6 harg6 arg7 harg7 hc0 hc1 x0 x1 x2 x3 acc)]
  unfold kernelRun0_B
  dsimp only
  sl_unfold_words
  rw [View.canon_unit_zero hz]
  simp only [View.readAt_eq_ld, harg2.read_unread, harg3.read_unread, harg4.read_unread, harg5.read_unread, harg7.read_unread,
    View.ld_unit_zero (S := S512x512) hz, View.ld_unit_zero (S := S2000x512) hz, View.ld_unit_zero (S := S400x512) hz,
    View.ld_unit_zero (S := S2000x1) hz, View.ld_unit_zero (S := S512x400) hz]

/-- The last step of a row tile: the scratch likewise. -/
theorem scratch_last (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S400x512 .f32) (harg4 : arg4.IsWhole) (arg5 : Memref sig .tc .vmem S2000x1 .i32) (harg5 : arg5.IsWhole) (arg6 : Memref sig .tc .vmem S512x400 .f32) (harg6 : arg6.IsWhole) (arg7 : Memref sig .tc .vmem S512x400 .f32) (harg7 : arg7.IsWhole) (hc0 : ¬cond0_0 i) (hc1 : cond0_1 i)
    (x0 : Vec F S512x512 .f32) (x1 : Vec F S2000x512 .f32) (x2 : Vec F S400x512 .f32) (x3 : Vec F S2000x1 .i32) (acc : Vec F S512x400 .f32) :
    sout0_C_0 c i arg2 harg2 arg3 harg3 arg4 harg4 arg5 harg5 arg6 harg6 arg7 harg7 hc0 hc1 x0 x1 x2 x3 acc = k0_pay2 x0 x1 x3 acc := by
  unfold sout0_C_0
  rw [View.read_writes_eq_canon _ _ _ (scover0_C_0 c i arg2 harg2 arg3 harg3 arg4 harg4 arg5 harg5 arg6 harg6 arg7 harg7 hc0 hc1 x0 x1 x2 x3 acc)]
  unfold kernelRun0_C
  dsimp only
  sl_unfold_words
  rw [View.canon_unit_zero hz]
  simp only [View.readAt_eq_ld, harg2.read_unread, harg3.read_unread, harg4.read_unread, harg5.read_unread, harg7.read_unread,
    View.ld_unit_zero (S := S512x512) hz, View.ld_unit_zero (S := S2000x512) hz, View.ld_unit_zero (S := S400x512) hz,
    View.ld_unit_zero (S := S2000x1) hz, View.ld_unit_zero (S := S512x400) hz]

/-- The last step of a row tile: the output block is the scratch as that step left it. -/
theorem output_last (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S400x512 .f32) (harg4 : arg4.IsWhole) (arg5 : Memref sig .tc .vmem S2000x1 .i32) (harg5 : arg5.IsWhole) (arg6 : Memref sig .tc .vmem S512x400 .f32) (harg6 : arg6.IsWhole) (arg7 : Memref sig .tc .vmem S512x400 .f32) (harg7 : arg7.IsWhole) (hc0 : ¬cond0_0 i) (hc1 : cond0_1 i)
    (x0 : Vec F S512x512 .f32) (x1 : Vec F S2000x512 .f32) (x2 : Vec F S400x512 .f32) (x3 : Vec F S2000x1 .i32) (acc : Vec F S512x400 .f32) :
    out0_C_4 c i arg2 harg2 arg3 harg3 arg4 harg4 arg5 harg5 arg6 harg6 arg7 harg7 hc0 hc1 x0 x1 x2 x3 acc = k0_pay2 x0 x1 x3 acc := by
  unfold out0_C_4
  rw [View.read_writes_eq_canon _ _ _ (cover0_C_4 c i arg2 harg2 arg3 harg3 arg4 harg4 arg5 harg5 arg6 harg6 arg7 harg7 hc0 hc1 x0 x1 x2 x3 acc)]
  unfold kernelRun0_C
  dsimp only
  sl_unfold_words
  rw [View.canon_unit_zero hz, View.readCov_unit_zero (S := S512x400) _ hz]
  simp only [View.readAt_eq_ld, harg2.read_unread, harg3.read_unread, harg4.read_unread, harg5.read_unread, harg7.read_unread,
    View.ld_unit_zero (S := S512x512) hz, View.ld_unit_zero (S := S2000x512) hz, View.ld_unit_zero (S := S400x512) hz,
    View.ld_unit_zero (S := S2000x1) hz, View.ld_unit_zero (S := S512x400) hz]

end Cert.KernelIdeal.Step

end
-- ==== Proof.Spec.lean ====
/-
  The mathematics of the result, written once and free of both programs.

  For a query row `e` (512 features) and a class `q`, the logit is
      scale · ⟨e, text_q⟩  +  one · Σ_k  exp (negBeta · (one − ⟨e, key_k⟩)) · [label_k = q]
  with k ranging over the 100000 support rows.  The three float literals stay as their bit patterns; the only
  value that is ever needed is that the pattern of 1.0 denotes the real 1 (so that `one · x = x`).

  The support sum may be taken 2000 rows at a time: adding, tile after tile, `one ·` the tile's partial sum to
  a running value is the same as adding the whole sum at once.  On the extended reals this uses only that
  addition is associative and commutative and that 1 is a left unit of the product, so no finiteness is asked.
-/
import Idealize.ShloMosaic.PureOps.Ideal
import Idealize.ShloMosaic.Lib.ValueIdx
import Mathlib.Algebra.BigOperators.Fin
import Mathlib.Algebra.BigOperators.Group.Finset.Basic

noncomputable section

namespace Cert.CacheLogits

open Idealize.ShloMosaic Finset

/-- The scale of the text logits (the pattern of 100.0). -/
abbrev scale : EReal := Ideal.ofBits .f32 0x42C80000#32
/-- The pattern of 1.0: the weight of the support term, and the `1` of `1 − affinity`. -/
abbrev one : EReal := Ideal.ofBits .f32 0x3F800000#32
/-- The sharpness of the exponential weight (the pattern of −5.5). -/
abbrev negBeta : EReal := Ideal.ofBits .f32 0xC0B00000#32

/-- The pattern of 1.0 denotes 1. -/
theorem one_eq : one = 1 := by
  show Ideal.ofBits .f32 0x3F800000#32 = 1
  simp [Ideal.ofBits, Ideal.ieee, -EReal.coe_mul]; norm_num

/-- The inner product of two feature rows. -/
def dot (u v : Fin 512 → EReal) : EReal := ∑ d : Fin 512, u d * v d

/-- The text logit of a query row against one class's text row. -/
def textLogit (e tx : Fin 512 → EReal) : EReal := scale * dot e tx

/-- The weight a support row gets from its affinity to the query: exp (negBeta · (one − ⟨e, key⟩)). -/
def weight (e kr : Fin 512 → EReal) : EReal := Ideal.exp (negBeta * (one - dot e kr))

/-- The indicator that a label word is class `q`, as the extended real 0 or 1: the comparison bit read unsigned. -/
def hot (l : BitVec 32) (q : ℕ) : EReal := (((IntOp.cmpi .eq l (BitVec.ofNat 32 q)).toNat : ℝ) : EReal)

/-- Support row `k`'s contribution to class `q`, the rows and labels given as functions of every natural. -/
def contrib (e : Fin 512 → EReal) (keyRow : ℕ → Fin 512 → EReal) (label : ℕ → BitVec 32) (q k : ℕ) : EReal :=
  weight e (keyRow k) * hot (label k) q

/-- The logit: text term plus `one ·` the sum over all 100000 support rows. -/
def logit (e tx : Fin 512 → EReal) (keyRow : ℕ → Fin 512 → EReal) (label : ℕ → BitVec 32) (q : ℕ) : EReal :=
  textLogit e tx + one * ∑ k : Fin 100000, contrib e keyRow label q k.val

/-! ## The whole result, from the four argument arrays -/

open Idealize.ShloMosaic.ValueIdx

/-- Row `k` of the key array, as a function of every natural: past the array's end (never summed) the zero row. -/
def keyRow (K : (⟨2, ![100000, 512]⟩ : Shape).Idx → EReal) (k : ℕ) : Fin 512 → EReal :=
  if h : k < 100000 then fun d => K (ix2 ⟨k, h⟩ d) else fun _ => 0

theorem keyRow_fin (K : (⟨2, ![100000, 512]⟩ : Shape).Idx → EReal) (k : Fin 100000) :
    keyRow K k.val = fun d => K (ix2 k d) := dif_pos k.isLt

/-- Label `k`, as a function of every natural: past the vector's end (never read) the zero word. -/
def labelOf (L : (⟨1, ![100000]⟩ : Shape).Idx → BitVec 32) (k : ℕ) : BitVec 32 :=
  if h : k < 100000 then L (ix1 ⟨k, h⟩) else 0

theorem labelOf_fin (L : (⟨1, ![100000]⟩ : Shape).Idx → BitVec 32) (k : Fin 100000) :
    labelOf L k.val = L (ix1 k) := dif_pos k.isLt

/-- The 2048 × 400 result: entry (r, q) is the logit of query row `r` for class `q`. -/
def result (E : (⟨2, ![2048, 512]⟩ : Shape).Idx → EReal) (K : (⟨2, ![100000, 512]⟩ : Shape).Idx → EReal)
    (Tx : (⟨2, ![400, 512]⟩ : Shape).Idx → EReal) (L : (⟨1, ![100000]⟩ : Shape).Idx → BitVec 32) :
    (⟨2, ![2048, 400]⟩ : Shape).Idx → EReal := fun i =>
  logit (fun d => E (ix2 (i 0) d)) (fun d => Tx (ix2 (i 1) d)) (keyRow K) (labelOf L) (i 1).val

theorem result_at (E : (⟨2, ![2048, 512]⟩ : Shape).Idx → EReal) (K : (⟨2, ![100000, 512]⟩ : Shape).Idx → EReal)
    (Tx : (⟨2, ![400, 512]⟩ : Shape).Idx → EReal) (L : (⟨1, ![100000]⟩ : Shape).Idx → BitVec 32) (r : Fin 2048) (q : Fin 400) :
    result E K Tx L (ix2 r q)
      = logit (fun d => E (ix2 r d)) (fun d => Tx (ix2 q d)) (keyRow K) (labelOf L) q.val := rfl

/-! ## Summing the support rows a tile at a time -/

/-- One more tile of 2000 support rows: the running value over the first `2000·n` rows, plus `one ·` the tile's
    partial sum, is the running value over the first `2000·(n+1)` rows. -/
theorem add_tile (g : ℕ → EReal) (Z : EReal) (n : ℕ) :
    (Z + ∑ k ∈ range (2000 * n), g k) + one * ∑ j : Fin 2000, g (2000 * n + j.val)
      = Z + ∑ k ∈ range (2000 * (n + 1)), g k := by
  rw [one_eq, one_mul, Fin.sum_univ_eq_sum_range (fun j => g (2000 * n + j)) 2000, add_assoc,
    ← Finset.sum_range_add, Nat.mul_succ]

/-- The first tile alone. -/
theorem first_tile (g : ℕ → EReal) (Z : EReal) :
    Z + one * ∑ j : Fin 2000, g (2000 * 0 + j.val) = Z + ∑ k ∈ range (2000 * (0 + 1)), g k := by
  have h := add_tile g Z 0
  rw [Nat.mul_zero, Finset.range_zero, Finset.sum_empty, add_zero] at h
  rw [Nat.mul_zero]
  exact h

/-- After all fifty tiles the running value is the whole sum, with the weight `one` put back in front of it. -/
theorem all_tiles (g : ℕ → EReal) (Z : EReal) :
    Z + ∑ k ∈ range (2000 * (49 + 1)), g k = Z + one * ∑ k : Fin 100000, g k.val := by
  rw [one_eq, one_mul, Fin.sum_univ_eq_sum_range g 100000]

end Cert.CacheLogits

end
-- ==== Proof.Payload.lean ====
/-
  The two store payloads of the body, read at one entry of the 512 × 400 block, on the extended reals.

  Row `p` of the block belongs to one query row `e`, column `q` to one class.  The reset payload is the text logit of
  `e` against class `q`'s text row.  The accumulating payload is the old entry plus `one ·` the sum, over the 2000
  support rows of the step's tile, of the row's exponential weight times the indicator that its label is `q`.
  Changes of float format are the identity here; a product into a zero block is the plain sum over the contracted
  axis; the indicator built by widening the comparison bit and converting it signed is the bit read unsigned.
-/
import proofs.«145298_j42107859370333_1_alg».proof.Proof.Gen.KernelIdeal.Skeleton
import proofs.«145298_j42107859370333_1_alg».proof.Proof.Spec
import Idealize.ShloMosaic.Lib.Pipeline.Value
import Idealize.ShloMosaic.Lib.ValueIdx
import Idealize.ShloMosaic.PureOps.Ideal.Laws
import Idealize.ShloMosaic.Lib.KernelVsHost

noncomputable section

open Idealize.ShloMosaic Idealize.ShloMosaic.TcCoe Idealize.SL.Sem Idealize.ShloMosaic.ValueIdx

namespace Cert.KernelIdeal.Entry

open Cert.KernelIdeal Cert.KernelIdeal.Gen Cert.CacheLogits

/-! ## The three matrix products, at an entry -/

theorem lhs_textDot_0 (i : S512x400.Idx) (q : dot_S512x512_S512x400_S512x400_1_0_0_1_n_n.contr.Idx) : (dot_S512x512_S512x400_S512x400_1_0_0_1_n_n.lhsIdx i q 0).val = (i 0).val := by
  unfold DotDims.lhsIdx
  rw [dif_neg (show ¬(0 : Fin S512x512.rank) ∈ dot_S512x512_S512x400_S512x400_1_0_0_1_n_n.lhsBatch by decide), dif_pos (show (0 : Fin S512x512.rank) ∈ dot_S512x512_S512x400_S512x400_1_0_0_1_n_n.lhsNonContracting by decide)]
  rfl
theorem lhs_textDot_1 (i : S512x400.Idx) (q : dot_S512x512_S512x400_S512x400_1_0_0_1_n_n.contr.Idx) : (dot_S512x512_S512x400_S512x400_1_0_0_1_n_n.lhsIdx i q 1).val = (q ⟨0, by decide⟩).val :=
  dot_S512x512_S512x400_S512x400_1_0_0_1_n_n.lhsIdx_val_of_single rfl i q
theorem rhs_textDot_0 (i : S512x400.Idx) (q : dot_S512x512_S512x400_S512x400_1_0_0_1_n_n.contr.Idx) : (dot_S512x512_S512x400_S512x400_1_0_0_1_n_n.rhsIdx i q 0).val = (q ⟨0, by decide⟩).val :=
  dot_S512x512_S512x400_S512x400_1_0_0_1_n_n.rhsIdx_val_of_single rfl i q
theorem rhs_textDot_1 (i : S512x400.Idx) (q : dot_S512x512_S512x400_S512x400_1_0_0_1_n_n.contr.Idx) : (dot_S512x512_S512x400_S512x400_1_0_0_1_n_n.rhsIdx i q 1).val = (i 1).val := by
  unfold DotDims.rhsIdx
  rw [dif_neg (show ¬(1 : Fin S512x400.rank) ∈ dot_S512x512_S512x400_S512x400_1_0_0_1_n_n.rhsBatch by decide), dif_pos (show (1 : Fin S512x400.rank) ∈ dot_S512x512_S512x400_S512x400_1_0_0_1_n_n.rhsNonContracting by decide)]
  rfl

/-- This product into a zero block, at row `p` and column `q`: the sum over the 512 contracted positions. -/
theorem textDot_at {φ₁ φ₂ : FTy} (l : FVec Ideal S512x512 φ₁) (r : FVec Ideal S512x400 φ₂) (p : Fin 512) (q : Fin 400) :
    matmul dot_S512x512_S512x400_S512x400_1_0_0_1_n_n none l r (constant S512x400 .f32 0x00000000#32) (ix2 p q) = ∑ k : Fin 512, l (ix2 p k) * r (ix2 k q) := by
  simp only [matmul]
  rw [Ideal.matmul_constant_zero_apply, ← Equiv.sum_comp (contrEquiv1 dot_S512x512_S512x400_S512x400_1_0_0_1_n_n 512 rfl rfl).symm]
  refine Finset.sum_congr rfl fun k _ => ?_
  have hk := contrEquiv1_symm_val dot_S512x512_S512x400_S512x400_1_0_0_1_n_n 512 rfl rfl k
  have el : dot_S512x512_S512x400_S512x400_1_0_0_1_n_n.lhsIdx (ix2 p q) ((contrEquiv1 dot_S512x512_S512x400_S512x400_1_0_0_1_n_n 512 rfl rfl).symm k) = ix2 p k := funext fun a => Fin.ext (by
    match a with
    | ⟨0, _⟩ => exact lhs_textDot_0 _ _
    | ⟨1, _⟩ => exact (lhs_textDot_1 _ _).trans hk)
  have er : dot_S512x512_S512x400_S512x400_1_0_0_1_n_n.rhsIdx (ix2 p q) ((contrEquiv1 dot_S512x512_S512x400_S512x400_1_0_0_1_n_n 512 rfl rfl).symm k) = ix2 k q := funext fun a => Fin.ext (by
    match a with
    | ⟨0, _⟩ => exact (rhs_textDot_0 _ _).trans hk
    | ⟨1, _⟩ => exact rhs_textDot_1 _ _)
  rw [el, er]

theorem lhs_affinityDot_0 (i : S512x2000.Idx) (q : dot_S512x512_S512x2000_S512x2000_1_0_0_1_n_n.contr.Idx) : (dot_S512x512_S512x2000_S512x2000_1_0_0_1_n_n.lhsIdx i q 0).val = (i 0).val := by
  unfold DotDims.lhsIdx
  rw [dif_neg (show ¬(0 : Fin S512x512.rank) ∈ dot_S512x512_S512x2000_S512x2000_1_0_0_1_n_n.lhsBatch by decide), dif_pos (show (0 : Fin S512x512.rank) ∈ dot_S512x512_S512x2000_S512x2000_1_0_0_1_n_n.lhsNonContracting by decide)]
  rfl
theorem lhs_affinityDot_1 (i : S512x2000.Idx) (q : dot_S512x512_S512x2000_S512x2000_1_0_0_1_n_n.contr.Idx) : (dot_S512x512_S512x2000_S512x2000_1_0_0_1_n_n.lhsIdx i q 1).val = (q ⟨0, by decide⟩).val :=
  dot_S512x512_S512x2000_S512x2000_1_0_0_1_n_n.lhsIdx_val_of_single rfl i q
theorem rhs_affinityDot_0 (i : S512x2000.Idx) (q : dot_S512x512_S512x2000_S512x2000_1_0_0_1_n_n.contr.Idx) : (dot_S512x512_S512x2000_S512x2000_1_0_0_1_n_n.rhsIdx i q 0).val = (q ⟨0, by decide⟩).val :=
  dot_S512x512_S512x2000_S512x2000_1_0_0_1_n_n.rhsIdx_val_of_single rfl i q
theorem rhs_affinityDot_1 (i : S512x2000.Idx) (q : dot_S512x512_S512x2000_S512x2000_1_0_0_1_n_n.contr.Idx) : (dot_S512x512_S512x2000_S512x2000_1_0_0_1_n_n.rhsIdx i q 1).val = (i 1).val := by
  unfold DotDims.rhsIdx
  rw [dif_neg (show ¬(1 : Fin S512x2000.rank) ∈ dot_S512x512_S512x2000_S512x2000_1_0_0_1_n_n.rhsBatch by decide), dif_pos (show (1 : Fin S512x2000.rank) ∈ dot_S512x512_S512x2000_S512x2000_1_0_0_1_n_n.rhsNonContracting by decide)]
  rfl

/-- This product into a zero block, at row `p` and column `q`: the sum over the 512 contracted positions. -/
theorem affinityDot_at {φ₁ φ₂ : FTy} (l : FVec Ideal S512x512 φ₁) (r : FVec Ideal S512x2000 φ₂) (p : Fin 512) (q : Fin 2000) :
    matmul dot_S512x512_S512x2000_S512x2000_1_0_0_1_n_n none l r (constant S512x2000 .f32 0x00000000#32) (ix2 p q) = ∑ k : Fin 512, l (ix2 p k) * r (ix2 k q) := by
  simp only [matmul]
  rw [Ideal.matmul_constant_zero_apply, ← Equiv.sum_comp (contrEquiv1 dot_S512x512_S512x2000_S512x2000_1_0_0_1_n_n 512 rfl rfl).symm]
  refine Finset.sum_congr rfl fun k _ => ?_
  have hk := contrEquiv1_symm_val dot_S512x512_S512x2000_S512x2000_1_0_0_1_n_n 512 rfl rfl k
  have el : dot_S512x512_S512x2000_S512x2000_1_0_0_1_n_n.lhsIdx (ix2 p q) ((contrEquiv1 dot_S512x512_S512x2000_S512x2000_1_0_0_1_n_n 512 rfl rfl).symm k) = ix2 p k := funext fun a => Fin.ext (by
    match a with
    | ⟨0, _⟩ => exact lhs_affinityDot_0 _ _
    | ⟨1, _⟩ => exact (lhs_affinityDot_1 _ _).trans hk)
  have er : dot_S512x512_S512x2000_S512x2000_1_0_0_1_n_n.rhsIdx (ix2 p q) ((contrEquiv1 dot_S512x512_S512x2000_S512x2000_1_0_0_1_n_n 512 rfl rfl).symm k) = ix2 k q := funext fun a => Fin.ext (by
    match a with
    | ⟨0, _⟩ => exact (rhs_affinityDot_0 _ _).trans hk
    | ⟨1, _⟩ => exact rhs_affinityDot_1 _ _)
  rw [el, er]

theorem lhs_tileDot_0 (i : S512x400.Idx) (q : dot_S512x2000_S2000x400_S512x400_1_0_0_1_n_n.contr.Idx) : (dot_S512x2000_S2000x400_S512x400_1_0_0_1_n_n.lhsIdx i q 0).val = (i 0).val := by
  unfold DotDims.lhsIdx
  rw [dif_neg (show ¬(0 : Fin S512x2000.rank) ∈ dot_S512x2000_S2000x400_S512x400_1_0_0_1_n_n.lhsBatch by decide), dif_pos (show (0 : Fin S512x2000.rank) ∈ dot_S512x2000_S2000x400_S512x400_1_0_0_1_n_n.lhsNonContracting by decide)]
  rfl
theorem lhs_tileDot_1 (i : S512x400.Idx) (q : dot_S512x2000_S2000x400_S512x400_1_0_0_1_n_n.contr.Idx) : (dot_S512x2000_S2000x400_S512x400_1_0_0_1_n_n.lhsIdx i q 1).val = (q ⟨0, by decide⟩).val :=
  dot_S512x2000_S2000x400_S512x400_1_0_0_1_n_n.lhsIdx_val_of_single rfl i q
theorem rhs_tileDot_0 (i : S512x400.Idx) (q : dot_S512x2000_S2000x400_S512x400_1_0_0_1_n_n.contr.Idx) : (dot_S512x2000_S2000x400_S512x400_1_0_0_1_n_n.rhsIdx i q 0).val = (q ⟨0, by decide⟩).val :=
  dot_S512x2000_S2000x400_S512x400_1_0_0_1_n_n.rhsIdx_val_of_single rfl i q
theorem rhs_tileDot_1 (i : S512x400.Idx) (q : dot_S512x2000_S2000x400_S512x400_1_0_0_1_n_n.contr.Idx) : (dot_S512x2000_S2000x400_S512x400_1_0_0_1_n_n.rhsIdx i q 1).val = (i 1).val := by
  unfold DotDims.rhsIdx
  rw [dif_neg (show ¬(1 : Fin S2000x400.rank) ∈ dot_S512x2000_S2000x400_S512x400_1_0_0_1_n_n.rhsBatch by decide), dif_pos (show (1 : Fin S2000x400.rank) ∈ dot_S512x2000_S2000x400_S512x400_1_0_0_1_n_n.rhsNonContracting by decide)]
  rfl

/-- This product into a zero block, at row `p` and column `q`: the sum over the 2000 contracted positions. -/
theorem tileDot_at {φ₁ φ₂ : FTy} (l : FVec Ideal S512x2000 φ₁) (r : FVec Ideal S2000x400 φ₂) (p : Fin 512) (q : Fin 400) :
    matmul dot_S512x2000_S2000x400_S512x400_1_0_0_1_n_n none l r (constant S512x400 .f32 0x00000000#32) (ix2 p q) = ∑ k : Fin 2000, l (ix2 p k) * r (ix2 k q) := by
  simp only [matmul]
  rw [Ideal.matmul_constant_zero_apply, ← Equiv.sum_comp (contrEquiv1 dot_S512x2000_S2000x400_S512x400_1_0_0_1_n_n 2000 rfl rfl).symm]
  refine Finset.sum_congr rfl fun k _ => ?_
  have hk := contrEquiv1_symm_val dot_S512x2000_S2000x400_S512x400_1_0_0_1_n_n 2000 rfl rfl k
  have el : dot_S512x2000_S2000x400_S512x400_1_0_0_1_n_n.lhsIdx (ix2 p q) ((contrEquiv1 dot_S512x2000_S2000x400_S512x400_1_0_0_1_n_n 2000 rfl rfl).symm k) = ix2 p k := funext fun a => Fin.ext (by
    match a with
    | ⟨0, _⟩ => exact lhs_tileDot_0 _ _
    | ⟨1, _⟩ => exact (lhs_tileDot_1 _ _).trans hk)
  have er : dot_S512x2000_S2000x400_S512x400_1_0_0_1_n_n.rhsIdx (ix2 p q) ((contrEquiv1 dot_S512x2000_S2000x400_S512x400_1_0_0_1_n_n 2000 rfl rfl).symm k) = ix2 k q := funext fun a => Fin.ext (by
    match a with
    | ⟨0, _⟩ => exact (rhs_tileDot_0 _ _).trans hk
    | ⟨1, _⟩ => exact rhs_tileDot_1 _ _)
  rw [el, er]

/-! ## The reset payload -/

/-- The text logits block at (p, q): the text logit of query row `p` against text row `q`. -/
theorem text_at (x0 : Vec Ideal S512x512 .f32) (x2 : Vec Ideal S400x512 .f32) (p : Fin 512) (q : Fin 400) :
    k0_pay1 (F := Ideal) x0 x2 (ix2 p q) = textLogit (fun d => x0 (ix2 p d)) (fun d => x2 (ix2 q d)) := by
  unfold k0_pay1
  dsimp only
  rw [shapeCast_self, mulf_apply, broadcast_apply, textDot_at]
  unfold textLogit dot
  refine congrArg (_ * ·) (Finset.sum_congr rfl fun d _ => ?_)
  rw [truncf_apply, transpose_apply [1, 0] _ _ (ix2 d q) (ix2 q d) (fun b => match b with | ⟨0, _⟩ => rfl | ⟨1, _⟩ => rfl), truncf_apply]

/-! ## The accumulating payload -/

/-- The elementwise exponential, at an entry. -/
theorem exp_at {s : Shape} {φ : FTy} (v : FVec Ideal s φ) (i : s.Idx) : exp v i = Ideal.exp (v i) := rfl

/-- The label column compared with the class numbers, widened, converted: at (j, q) the indicator that support row
    `j` of the tile is labelled `q`. -/
theorem hot_at (x3 : Vec Ideal S2000x1 .i32) (j : Fin 2000) (q : Fin 400) :
    (truncf .bf16 (sitofp .f32 (extui 32 (cmpi .eq (broadcastTo S2000x400 (shapeCast S2000x1 x3 shapeCasts_S2000x1_S2000x1) broadcasts_S2000x1_S2000x400)
        (iota .tc S2000x400 32 [1] iota_S2000x400_d1_w32)) natLt_1_32)) bitsLt_bf16_f32 : FVec Ideal S2000x400 .bf16) (ix2 j q)
      = hot (x3 (ix2 j 0)) q.val := by
  rw [truncf_apply, sitofp_extui_eq_uitofp]
  show (((IntOp.cmpi .eq (broadcastTo S2000x400 (shapeCast S2000x1 x3 shapeCasts_S2000x1_S2000x1) broadcasts_S2000x1_S2000x400 (ix2 j q))
      (iota .tc S2000x400 32 [1] iota_S2000x400_d1_w32 (ix2 j q))).toNat : ℝ) : EReal) = _
  rw [broadcastTo_apply _ broadcasts_S2000x1_S2000x400 (ix2 j q) (ix2 j 0) (fun a => match a with
      | ⟨0, _⟩ => by show j.val = if (2000 : Nat) = 1 then 0 else j.val; rw [if_neg (by decide)]
      | ⟨1, _⟩ => by show 0 = if (1 : Nat) = 1 then 0 else q.val; rw [if_pos rfl]),
    iota_single_apply, shapeCast_self]
  rfl

/-- The exponential weights block at (p, j): the weight of the tile's support row `j` for query row `p`. -/
theorem weight_at (x0 : Vec Ideal S512x512 .f32) (x1 : Vec Ideal S2000x512 .f32) (p : Fin 512) (j : Fin 2000) :
    (truncf .bf16 (exp (mulf (broadcast S512x2000 (Scalar.ofBits .f32 0xC0B00000#32)) (subf (broadcast S512x2000 (Scalar.ofBits .f32 0x3F800000#32))
        (matmul dot_S512x512_S512x2000_S512x2000_1_0_0_1_n_n none (truncf .bf16 x0 bitsLt_bf16_f32)
          (transpose S512x2000 [1, 0] (truncf .bf16 x1 bitsLt_bf16_f32) transposes_S2000x512_p1_0_S512x2000) (constant S512x2000 .f32 0x00000000#32))))) bitsLt_bf16_f32
        : FVec Ideal S512x2000 .bf16) (ix2 p j)
      = weight (fun d => x0 (ix2 p d)) (fun d => x1 (ix2 j d)) := by
  rw [truncf_apply, exp_at, mulf_apply, broadcast_apply, subf_apply, broadcast_apply, affinityDot_at]
  unfold weight dot
  refine congrArg (fun s => Ideal.exp (_ * (_ - s))) (Finset.sum_congr rfl fun d _ => ?_)
  rw [truncf_apply, transpose_apply [1, 0] _ _ (ix2 d j) (ix2 j d) (fun b => match b with | ⟨0, _⟩ => rfl | ⟨1, _⟩ => rfl), truncf_apply]

/-- The accumulating payload at (p, q): the old entry plus `one ·` the tile's weighted indicator sum. -/
theorem tile_at (x0 : Vec Ideal S512x512 .f32) (x1 : Vec Ideal S2000x512 .f32) (x3 : Vec Ideal S2000x1 .i32) (acc : Vec Ideal S512x400 .f32)
    (p : Fin 512) (q : Fin 400) :
    k0_pay2 (F := Ideal) x0 x1 x3 acc (ix2 p q)
      = acc (ix2 p q) + one * ∑ j : Fin 2000, weight (fun d => x0 (ix2 p d)) (fun d => x1 (ix2 j d)) * hot (x3 (ix2 j 0)) q.val := by
  unfold k0_pay2
  dsimp only
  rw [shapeCast_self, addf_apply, mulf_apply, broadcast_apply, tileDot_at]
  refine congrArg (fun s => acc (ix2 p q) + _ * s) (Finset.sum_congr rfl fun j _ => ?_)
  rw [weight_at, hot_at]

end Cert.KernelIdeal.Entry

end
-- ==== Proof.Blocks.lean ====
/-
  The blocks a grid step is handed, read as entries of the argument arrays.

  The grid has 4 × 50 points; point t sits at row tile t / 50 and support tile t % 50.  There the query block is rows
  512·(t/50) … of the query array, the key block is rows 2000·(t%50) … of the key array, the text block is the whole
  text array, and the label block is rows 2000·(t%50) … of the label column — the label vector laid out as a
  100000 × 1 array before the kernel starts, which changes no entry.
-/
import proofs.«145298_j42107859370333_1_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx Idealize.ShloMosaic.StableHlo

namespace Cert.KernelIdeal.Tile

open Cert.KernelIdeal Cert.KernelIdeal.Gen

variable {F : FTy → Type} [FloatOps F]
variable (m : (ℓ : Loc nD τ sig) → Buf (Elt F) ℓ)

/-! ## Which block each window is at -/

theorem at_query : ∀ t : Fin cfg0.N, win0_0.index t 0 = t.val / 50 ∧ win0_0.index t 1 = 0 :=
  (by decide +kernel : ∀ t : Fin grid0.N, win0_0.index t 0 = t.val / 50 ∧ win0_0.index t 1 = 0)
theorem at_key : ∀ t : Fin cfg0.N, win0_1.index t 0 = t.val % 50 ∧ win0_1.index t 1 = 0 :=
  (by decide +kernel : ∀ t : Fin grid0.N, win0_1.index t 0 = t.val % 50 ∧ win0_1.index t 1 = 0)
theorem at_text : ∀ t : Fin cfg0.N, win0_2.index t 0 = 0 ∧ win0_2.index t 1 = 0 :=
  (by decide +kernel : ∀ t : Fin grid0.N, win0_2.index t 0 = 0 ∧ win0_2.index t 1 = 0)
theorem at_label : ∀ t : Fin cfg0.N, win0_3.index t 0 = t.val % 50 ∧ win0_3.index t 1 = 0 :=
  (by decide +kernel : ∀ t : Fin grid0.N, win0_3.index t 0 = t.val % 50 ∧ win0_3.index t 1 = 0)
theorem at_out : ∀ t : Fin cfg0.N, win0_4.index t 0 = t.val / 50 ∧ win0_4.index t 1 = 0 :=
  (by decide +kernel : ∀ t : Fin grid0.N, win0_4.index t 0 = t.val / 50 ∧ win0_4.index t 1 = 0)

/-! ## The blocks and the arrays, by their literal types -/

abbrev queryBlock (c : Dev nD) (t : Fin cfg0.N) : Vec F S512x512 .f32 := iblk m c 0 t
abbrev keyBlock (c : Dev nD) (t : Fin cfg0.N) : Vec F S2000x512 .f32 := iblk m c 1 t
abbrev textBlock (c : Dev nD) (t : Fin cfg0.N) : Vec F S400x512 .f32 := iblk m c 2 t
abbrev labelBlock (c : Dev nD) (t : Fin cfg0.N) : Vec F S2000x1 .i32 := iblk m c 3 t

abbrev queries (c : Dev nD) : Vec F S2048x512 .f32 := m ((c : Thread nD τ).loc main_arg0)
abbrev keys (c : Dev nD) : Vec F S100000x512 .f32 := m ((c : Thread nD τ).loc main_arg1)
abbrev texts (c : Dev nD) : Vec F S400x512 .f32 := m ((c : Thread nD τ).loc main_arg2)
abbrev labels (c : Dev nD) : Vec F S100000 .i32 := m ((c : Thread nD τ).loc main_arg3)

/-- The label column the kernel is given: the label vector with a unit axis added. -/
theorem labelColumn (c : Dev nD) :
    (V m c main_v0 : Vec F S100000x1 .i32) = shapeCast S100000x1 (labels m c) shapeCasts_S100000_S100000x1 := by
  dsimp only [V, hostOps0]
  after_results
  rfl

/-- An entry of the label column is the label of its row. -/
theorem labelColumn_at (c : Dev nD) (k : Fin 100000) :
    (V m c main_v0 : Vec F S100000x1 .i32) (ix2 k 0) = labels m c (ix1 k) := by
  rw [labelColumn]
  refine shapeCast_apply _ _ (ix2 k 0) (ix1 k) ?_
  rw [Shape.rowMajor_val_one, Shape.rowMajor_val_two]
  show k.val = k.val * 1 + 0
  omega

/-! ## Entries of the blocks -/

theorem queryBlock_at (c : Dev nD) (t : Fin cfg0.N) (p : Fin 512) (d : Fin 512) (r : Fin 2048) (hr : r.val = 512 * (t.val / 50) + p.val) :
    queryBlock m c t (ix2 p d) = queries m c (ix2 r d) := by
  unfold queryBlock iblk
  rw [View.read_apply]
  show V m c main_arg0 _ = _
  rw [V_main_arg0]
  refine congrArg _ (funext fun a => Fin.ext ?_)
  match a with
  | ⟨0, _⟩ => show win0_0.index t 0 * 512 + 1 * p.val = r.val; rw [(at_query t).1, hr]; omega
  | ⟨1, _⟩ => show win0_0.index t 1 * 512 + 1 * d.val = d.val; rw [(at_query t).2]; omega

theorem keyBlock_at (c : Dev nD) (t : Fin cfg0.N) (j : Fin 2000) (d : Fin 512) (k : Fin 100000) (hk : k.val = 2000 * (t.val % 50) + j.val) :
    keyBlock m c t (ix2 j d) = keys m c (ix2 k d) := by
  unfold keyBlock iblk
  rw [View.read_apply]
  show V m c main_arg1 _ = _
  rw [V_main_arg1]
  refine congrArg _ (funext fun a => Fin.ext ?_)
  match a with
  | ⟨0, _⟩ => show win0_1.index t 0 * 2000 + 1 * j.val = k.val; rw [(at_key t).1, hk]; omega
  | ⟨1, _⟩ => show win0_1.index t 1 * 512 + 1 * d.val = d.val; rw [(at_key t).2]; omega

theorem textBlock_at (c : Dev nD) (t : Fin cfg0.N) (q : Fin 400) (d : Fin 512) :
    textBlock m c t (ix2 q d) = texts m c (ix2 q d) := by
  unfold textBlock iblk
  rw [View.read_apply]
  show V m c main_arg2 _ = _
  rw [V_main_arg2]
  refine congrArg _ (funext fun a => Fin.ext ?_)
  match a with
  | ⟨0, _⟩ => show win0_2.index t 0 * 400 + 1 * q.val = q.val; rw [(at_text t).1]; omega
  | ⟨1, _⟩ => show win0_2.index t 1 * 512 + 1 * d.val = d.val; rw [(at_text t).2]; omega

theorem labelBlock_at (c : Dev nD) (t : Fin cfg0.N) (j : Fin 2000) (k : Fin 100000) (hk : k.val = 2000 * (t.val % 50) + j.val) :
    labelBlock m c t (ix2 j 0) = labels m c (ix1 k) := by
  rw [← labelColumn_at m c k]
  unfold labelBlock iblk
  rw [View.read_apply]
  show V m c main_v0 _ = _
  refine congrArg _ (funext fun a => Fin.ext ?_)
  match a with
  | ⟨0, _⟩ => show win0_3.index t 0 * 2000 + 1 * j.val = k.val; rw [(at_label t).1, hk]; omega
  | ⟨1, _⟩ => show win0_3.index t 1 * 1 + 1 * 0 = 0; rw [(at_label t).2]

end Cert.KernelIdeal.Tile

end
-- ==== Proof.Running.lean ====
/-
  The running block of logits, step by step, and the result array.

  Fix a row tile b (grid points 50·b … 50·b + 49) and an entry (p, q) of the 512 × 400 block; it belongs to query row
  r = 512·b + p and class q.  After the step at support tile n the scratch entry is
      text logit of (r, q)  +  Σ over the first 2000·(n + 1) support rows of their contributions to (r, q):
  the first step stores the text logits and adds tile 0; each later step adds its tile to what the step before
  left.  After tile 49 that is the sum over all 100000 rows, which is the logit of (r, q); that step copies the
  scratch into the output block, the only block of the row tile that is written back, and the four row tiles'
  blocks fill the 2048 × 400 result.
-/
import proofs.«145298_j42107859370333_1_alg».proof.Proof.Pieces
import proofs.«145298_j42107859370333_1_alg».proof.Proof.Payload
import proofs.«145298_j42107859370333_1_alg».proof.Proof.Blocks
import proofs.«145298_j42107859370333_1_alg».proof.Proof.Gen.KernelIdeal.Value

noncomputable section

open Idealize.ShloMosaic Idealize.ShloMosaic.TcCoe Idealize.SL.Sem Idealize.ShloMosaic.ValueIdx
open Idealize.ShloMosaic.Pipeline (Dat)

namespace Cert.KernelIdeal.Running

open Cert.KernelIdeal Cert.KernelIdeal.Gen Cert.CacheLogits Cert.KernelIdeal.Step Cert.KernelIdeal.Entry Cert.KernelIdeal.Tile

variable (m : (ℓ : Loc nD τ sig) → Buf (Elt Ideal) ℓ)

/-- Support row k's contribution to the logit of query row r for class q (zero past the last row). -/
abbrev rowContrib (c : Dev nD) (r : Fin 2048) (q : Fin 400) : ℕ → EReal :=
  contrib (fun d => queries m c (ix2 r d)) (keyRow (keys m c)) (labelOf (labels m c)) q.val

/-- The text logit of query row r for class q. -/
abbrev rowText (c : Dev nD) (r : Fin 2048) (q : Fin 400) : EReal :=
  textLogit (fun d => queries m c (ix2 r d)) (fun d => texts m c (ix2 q d))

/-! ## One step's two payloads on the step's blocks -/

/-- The reset payload on the blocks of point t, at (p, q): the text logit of the entry's query row and class. -/
theorem reset_at (c : Dev nD) (t : Fin cfg0.N) (p : Fin 512) (q : Fin 400) (r : Fin 2048) (hr : r.val = 512 * (t.val / 50) + p.val) :
    k0_pay1 (F := Ideal) (queryBlock m c t) (textBlock m c t) (ix2 p q) = rowText m c r q := by
  refine (text_at (queryBlock m c t) (textBlock m c t) p q).trans ?_
  exact congrArg₂ textLogit (funext fun d => queryBlock_at m c t p d r hr) (funext fun d => textBlock_at m c t q d)

/-- The accumulating payload on the blocks of point t, at (p, q): the old entry plus `one ·` the contributions of
    support rows 2000·(t % 50) … 2000·(t % 50) + 1999. -/
theorem step_at (c : Dev nD) (t : Fin cfg0.N) (acc : Vec Ideal S512x400 .f32) (p : Fin 512) (q : Fin 400) (r : Fin 2048)
    (hr : r.val = 512 * (t.val / 50) + p.val) :
    k0_pay2 (F := Ideal) (queryBlock m c t) (keyBlock m c t) (labelBlock m c t) acc (ix2 p q)
      = acc (ix2 p q) + one * ∑ j : Fin 2000, rowContrib m c r q (2000 * (t.val % 50) + j.val) := by
  refine (tile_at (queryBlock m c t) (keyBlock m c t) (labelBlock m c t) acc p q).trans ?_
  refine congrArg (fun s => acc (ix2 p q) + one * s) (Finset.sum_congr rfl fun j _ => ?_)
  have hlt : 2000 * (t.val % 50) + j.val < 100000 := by have := j.isLt; omega
  show _ = weight _ (keyRow (keys m c) (⟨2000 * (t.val % 50) + j.val, hlt⟩ : Fin 100000).val)
    * hot (labelOf (labels m c) (⟨2000 * (t.val % 50) + j.val, hlt⟩ : Fin 100000).val) q.val
  rw [keyRow_fin, labelOf_fin]
  exact congrArg₂ (· * ·)
    (congrArg₂ weight (funext fun d => queryBlock_at m c t p d r hr) (funext fun d => keyBlock_at m c t j d ⟨_, hlt⟩ rfl))
    (congrArg (hot · q.val) (labelBlock_at m c t j ⟨_, hlt⟩ rfl))

/-! ## The scratch after each step -/

/-- The first step of a row tile. -/
theorem first_step (c : Dev nD) (t : Fin cfg0.N) (h0 : t.val % 50 = 0) (p : Fin 512) (q : Fin 400) (r : Fin 2048)
    (hr : r.val = 512 * (t.val / 50) + p.val) :
    (outsAt0 m c t.val t.isLt).2 (ix2 p q)
      = rowText m c r q + ∑ k ∈ Finset.range (2000 * (t.val % 50 + 1)), rowContrib m c r q k := by
  have h1 : ¬ t.val % 50 = 49 := by omega
  rw [outsAt0_A m c t h0 h1]
  dsimp only
  refine (congrFun (scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h))
    (queryBlock m c t) (keyBlock m c t) (textBlock m c t) (labelBlock m c t)) (ix2 p q)).trans ?_
  rw [step_at m c t _ p q r hr, reset_at m c t p q r hr, h0]
  exact first_tile _ _

/-- A later step, over what the step before left. -/
theorem later_step (c : Dev nD) (t : Fin cfg0.N) (h0 : ¬ t.val % 50 = 0) (p : Fin 512) (q : Fin 400) (r : Fin 2048)
    (hr : r.val = 512 * (t.val / 50) + p.val)
    (ih : (outsAt0 m c (t.val - 1) (Nat.lt_of_le_of_lt (Nat.sub_le _ _) t.isLt)).2 (ix2 p q)
      = rowText m c r q + ∑ k ∈ Finset.range (2000 * (t.val % 50)), rowContrib m c r q k) :
    (outsAt0 m c t.val t.isLt).2 (ix2 p q)
      = rowText m c r q + ∑ k ∈ Finset.range (2000 * (t.val % 50 + 1)), rowContrib m c r q k := by
  have hstep : k0_pay2 (F := Ideal) (queryBlock m c t) (keyBlock m c t) (labelBlock m c t) (outsAt0 m c (t.val - 1) (Nat.lt_of_le_of_lt (Nat.sub_le _ _) t.isLt)).2 (ix2 p q)
      = rowText m c r q + ∑ k ∈ Finset.range (2000 * (t.val % 50 + 1)), rowContrib m c r q k := by
    rw [step_at m c t _ p q r hr, ih]
    exact add_tile _ _ _
  by_cases h1 : t.val % 50 = 49
  · rw [outsAt0_C m c t h0 h1]
    dsimp only
    exact (congrFun (scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1)
      (queryBlock m c t) (keyBlock m c t) (textBlock m c t) (labelBlock m c t) (outsAt0 m c (t.val - 1) (Nat.lt_of_le_of_lt (Nat.sub_le _ _) t.isLt)).2) (ix2 p q)).trans hstep
  · rw [outsAt0_B m c t h0 h1]
    dsimp only
    exact (congrFun (scratch_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h))
      (queryBlock m c t) (keyBlock m c t) (textBlock m c t) (labelBlock m c t) (outsAt0 m c (t.val - 1) (Nat.lt_of_le_of_lt (Nat.sub_le _ _) t.isLt)).2) (ix2 p q)).trans hstep

/-- After the step at point n, the scratch entry (p, q) of row tile n / 50: the text logit plus the contributions of
    the first 2000·(n % 50 + 1) support rows. By induction on the point. -/
theorem scratch_at (c : Dev nD) (n : ℕ) : ∀ (h : n < cfg0.N) (p : Fin 512) (q : Fin 400) (r : Fin 2048),
    r.val = 512 * (n / 50) + p.val →
    (outsAt0 m c n h).2 (ix2 p q)
      = rowText m c r q + ∑ k ∈ Finset.range (2000 * (n % 50 + 1)), rowContrib m c r q k := by
  induction n with
  | zero => intro h p q r hr; exact first_step m c ⟨0, h⟩ rfl p q r hr
  | succ n ih =>
    intro h p q r hr
    by_cases h0 : (n + 1) % 50 = 0
    · exact first_step m c ⟨n + 1, h⟩ h0 p q r hr
    · refine later_step m c ⟨n + 1, h⟩ h0 p q r hr ?_
      have e : (n + 1) % 50 = n % 50 + 1 := by omega
      have hprev := ih (Nat.lt_of_succ_lt h) p q r (by omega)
      dsimp only
      rw [e]
      exact hprev

/-! ## The output block, and the result array -/

/-- What the result array is to hold: entry (r, q) is the logit of query row r for class q. -/
abbrev answer (c : Dev nD) : Buf (Elt Ideal) ((c : Thread nD τ).loc main_v1) :=
  result (queries m c) (keys m c) (texts m c) (labels m c)

/-- At the last step of a row tile the output block is the scratch, whose entry (p, q) is by now the whole logit. -/
theorem output_at (c : Dev nD) (t : Fin cfg0.N) (h1 : t.val % 50 = 49) (p : Fin 512) (q : Fin 400) (r : Fin 2048)
    (hr : r.val = 512 * (t.val / 50) + p.val) :
    (outsAt0 m c t.val t.isLt).1 (ix2 p q) = answer m c (ix2 r q) := by
  have h0 : ¬ t.val % 50 = 0 := by omega
  have same : (outsAt0 m c t.val t.isLt).1 = (outsAt0 m c t.val t.isLt).2 := by
    rw [outsAt0_C m c t h0 h1]
    dsimp only
    exact (output_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1)
        (queryBlock m c t) (keyBlock m c t) (textBlock m c t) (labelBlock m c t) (outsAt0 m c (t.val - 1) (Nat.lt_of_le_of_lt (Nat.sub_le _ _) t.isLt)).2).trans
      (scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1)
        (queryBlock m c t) (keyBlock m c t) (textBlock m c t) (labelBlock m c t) (outsAt0 m c (t.val - 1) (Nat.lt_of_le_of_lt (Nat.sub_le _ _) t.isLt)).2).symm
  rw [same, scratch_at m c t.val t.isLt p q r hr, h1]
  exact all_tiles _ _

/-- The block a row tile's last step writes back is that block of the answer. -/
theorem flushed_eq (c : Dev nD) (t : Fin cfg0.N) (hf : (cfg0.win 4).flush t = true) :
    (dats m 0 c).flushed 4 t = ((cfg0.win 4).blk t).view.read (Elt Ideal) (answer m c) := by
  have h1 : t.val % 50 = 49 := (flush0_4 t).mp hf
  have hN : t.val < 200 := lt_of_lt_of_eq t.isLt (show cfg0.N = 200 from N_0)
  rw [Value.flushed4]
  refine funext fun (y : S512x400.Idx) => ?_
  obtain ⟨p, q, rfl⟩ : ∃ (p : Fin 512) (q : Fin 400), y = ix2 p q := ⟨y 0, y 1, eq_ix2 y⟩
  show (outsAt0 m c t.val t.isLt).1 (ix2 p q) = answer m c (((cfg0.win 4).blk t).view.emb (ix2 p q))
  rw [output_at m c t h1 p q ⟨512 * (t.val / 50) + p.val, by have := p.isLt; omega⟩ rfl]
  refine congrArg (answer m c) (funext fun a => Fin.ext ?_)
  match a with
  | ⟨0, _⟩ => show 512 * (t.val / 50) + p.val = win0_4.index t 0 * 512 + 1 * p.val; rw [(at_out t).1]; omega
  | ⟨1, _⟩ => show q.val = win0_4.index t 1 * 400 + 1 * q.val; rw [(at_out t).2]; omega

/-- An entry of the result lies in point t's output block iff each coordinate lies in the block's range. -/
theorem mem_block (t : Fin cfg0.N) (i : S2048x400.Idx) :
    i ∈ ((cfg0.win 4).blk t).view.set ↔ ∀ a : Fin 2, win0_4.index t a * S512x400.size a ≤ (i a).val
      ∧ (i a).val < win0_4.index t a * S512x400.size a + S512x400.size a := by
  show i ∈ ((View.whole main_v1).slice (win0_4.rect t)).set ↔ _
  rw [View.set_slice_whole, Rect.mem_set_unit]
  exact Iff.rfl

/-- Every entry of the result is in the block written back at the end of its row tile. -/
theorem covered (i : S2048x400.Idx) :
    ∃ t : Fin cfg0.N, (cfg0.win 4).flush t = true ∧ i ∈ ((cfg0.win 4).blk t).view.set := by
  have hi0 : (i 0).val < 2048 := (i 0).isLt
  have hi1 : (i 1).val < 400 := (i 1).isLt
  have hN : cfg0.N = 200 := N_0
  have hlt : 50 * ((i 0).val / 512) + 49 < cfg0.N := by rw [hN]; omega
  refine ⟨⟨50 * ((i 0).val / 512) + 49, hlt⟩, (flush0_4 _).mpr (by dsimp only; omega), ?_⟩
  rw [mem_block]
  intro a
  match a with
  | ⟨0, _⟩ =>
    show win0_4.index ⟨50 * ((i 0).val / 512) + 49, hlt⟩ 0 * 512 ≤ (i 0).val
      ∧ (i 0).val < win0_4.index ⟨50 * ((i 0).val / 512) + 49, hlt⟩ 0 * 512 + 512
    rw [(at_out ⟨50 * ((i 0).val / 512) + 49, hlt⟩).1]; dsimp only; omega
  | ⟨1, _⟩ =>
    show win0_4.index ⟨50 * ((i 0).val / 512) + 49, hlt⟩ 1 * 400 ≤ (i 1).val
      ∧ (i 1).val < win0_4.index ⟨50 * ((i 0).val / 512) + 49, hlt⟩ 1 * 400 + 400
    rw [(at_out ⟨50 * ((i 0).val / 512) + 49, hlt⟩).2]; omega

/-- So the result array ends holding the answer. -/
theorem final (c : Dev nD) : (dats m 0 c).arrAt 4 cfg0.N = answer m c :=
  (dats m 0 c).arrAt_eq_of_cover 4 (answer m c) (flushed_eq m c) covered

/-- The kernel's run: it terminates, the result array holds the answer, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v1) = answer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Running

end
-- ==== Proof.Reference.lean ====
/-
  The reference computes the same array.

  Entry (r, q) of the reference's result is  scale · ⟨query r, text q⟩ + one · Σ_k w(r, k) · [label k = q], the sum
  over all 100000 support rows at once, with w(r, k) = exp (negBeta · (one − ⟨query r, key k⟩)) and the indicator the
  comparison bit of the one-hot table read unsigned.  The transposes only exchange the two coordinates of an index,
  and the scalar constants are broadcast.  Read operation by operation this is the logit of the specification.
-/
import proofs.«145298_j42107859370333_1_alg».proof.Proof.Gen.ReferenceIdeal.Read
import proofs.«145298_j42107859370333_1_alg».proof.Proof.Spec
import Idealize.ShloMosaic.Lib.ValueIdx

noncomputable section

open Idealize.ShloMosaic Idealize.ShloMosaic.TcCoe Idealize.SL.Sem Idealize.ShloMosaic.ValueIdx

namespace Cert.ReferenceIdeal.Whole

open Cert.ReferenceIdeal Cert.ReferenceIdeal.Gen Cert.ReferenceIdeal.Read Cert.CacheLogits

/-- The text term of the reference at (r, q). -/
theorem text_side (x0 : (⟨S2048x512, .f32⟩ : BufTy).Contents (Elt Ideal)) (x2 : (⟨S400x512, .f32⟩ : BufTy).Contents (Elt Ideal))
    (r : Fin 2048) (q : Fin 400) :
    val_main_v12 (F := Ideal) x0 x2 (ix2 r q) = textLogit (fun d => x0 (ix2 r d)) (fun d => x2 (ix2 q d)) := by
  rw [val_main_v12_apply, val_main_v11_apply, val_main_cst_1_apply, val_main_v10_apply]
  unfold textLogit dot
  show Ideal.ofBits .f32 0x42C80000#32 * _ = _
  refine congrArg (_ * ·) (Finset.sum_congr rfl fun d _ => ?_)
  rw [val_main_v9_apply]
  have e1 : lidx_main_v10 (ix2 r q) d = ix2 r d := funext fun a => Fin.ext (by match a with | ⟨0, _⟩ => rfl | ⟨1, _⟩ => rfl)
  have e2 : idx_main_v9 (ridx_main_v10 (ix2 r q) d) = ix2 q d := funext fun a => Fin.ext (by match a with | ⟨0, _⟩ => rfl | ⟨1, _⟩ => rfl)
  rw [e1, e2]

/-- The exponential weight table of the reference at (r, k). -/
theorem weight_side (x0 : (⟨S2048x512, .f32⟩ : BufTy).Contents (Elt Ideal)) (x1 : (⟨S100000x512, .f32⟩ : BufTy).Contents (Elt Ideal))
    (r : Fin 2048) (k : Fin 100000) :
    val_main_v7 (F := Ideal) x0 x1 (ix2 r k) = weight (fun d => x0 (ix2 r d)) (fun d => x1 (ix2 k d)) := by
  rw [val_main_v7_apply, val_main_v6_apply, val_main_v5_apply, val_main_cst_0_apply, val_main_v4_apply, val_main_v3_apply,
    val_main_cst_apply, val_main_v2_apply]
  unfold weight dot
  show Ideal.exp (Ideal.ofBits .f32 0xC0B00000#32 * (Ideal.ofBits .f32 0x3F800000#32 - _)) = _
  refine congrArg (fun s => Ideal.exp (_ * (_ - s))) (Finset.sum_congr rfl fun d _ => ?_)
  rw [val_main_v1_apply]
  have e1 : lidx_main_v2 (ix2 r k) d = ix2 r d := funext fun a => Fin.ext (by match a with | ⟨0, _⟩ => rfl | ⟨1, _⟩ => rfl)
  have e2 : idx_main_v1 (ridx_main_v2 (ix2 r k) d) = ix2 k d := funext fun a => Fin.ext (by match a with | ⟨0, _⟩ => rfl | ⟨1, _⟩ => rfl)
  rw [e1, e2]

/-- The one-hot table of the reference at (k, q). -/
theorem hot_side (x3 : (⟨S100000, .i32⟩ : BufTy).Contents (Elt Ideal)) (k : Fin 100000) (q : Fin 400) :
    val_main_v0 (F := Ideal) x3 (ix2 k q) = hot (x3 (ix1 k)) q.val := by
  rw [val_main_v0_apply, val_main_call0_v4_apply, val_main_call0_v2_apply, val_main_call0_v0_apply, val_main_call0_v3_apply,
    val_main_call0_v1_apply]
  have e : idx_main_call0_v0 (idx_main_call0_v2 (ix2 k q)) = ix1 k := funext fun a => Fin.ext (by match a with | ⟨0, _⟩ => rfl)
  rw [e]
  rfl

/-- The reference's result array is the specification's. -/
theorem reference_is_result (x0 : (⟨S2048x512, .f32⟩ : BufTy).Contents (Elt Ideal)) (x1 : (⟨S100000x512, .f32⟩ : BufTy).Contents (Elt Ideal))
    (x2 : (⟨S400x512, .f32⟩ : BufTy).Contents (Elt Ideal)) (x3 : (⟨S100000, .i32⟩ : BufTy).Contents (Elt Ideal)) :
    val_main_v15 (F := Ideal) x0 x1 x2 x3 = result x0 x1 x2 x3 := by
  funext i
  obtain ⟨r, q, rfl⟩ : ∃ (r : Fin 2048) (q : Fin 400), i = ix2 r q := ⟨i 0, i 1, eq_ix2 i⟩
  have hterm : ∀ k : Fin 100000,
      val_main_v7 (F := Ideal) x0 x1 (lidx_main_v8 (ix2 r q) k) * val_main_v0 (F := Ideal) x3 (ridx_main_v8 (ix2 r q) k)
        = contrib (fun d => x0 (ix2 r d)) (keyRow x1) (labelOf x3) q.val k.val := fun k => by
    have e1 : lidx_main_v8 (ix2 r q) k = ix2 r k := funext fun a => Fin.ext (by match a with | ⟨0, _⟩ => rfl | ⟨1, _⟩ => rfl)
    have e2 : ridx_main_v8 (ix2 r q) k = ix2 k q := funext fun a => Fin.ext (by match a with | ⟨0, _⟩ => rfl | ⟨1, _⟩ => rfl)
    rw [e1, e2, weight_side, hot_side]
    unfold contrib
    rw [keyRow_fin, labelOf_fin]
  rw [result_at, val_main_v15_apply, text_side, val_main_v14_apply, val_main_v13_apply, val_main_cst_2_apply, val_main_v8_apply,
    Finset.sum_congr rfl fun k _ => hterm k]
  rfl

end Cert.ReferenceIdeal.Whole

end
-- ==== Proof.lean ====
/-
  A nearest-neighbour cache classifier, computed two ways, gives one array of logits.

  For 2048 query rows e, 400 classes q and 100000 support rows (key_k, label_k) the logit is
      100 · ⟨e, text_q⟩  +  1 · Σ_k  exp (−5.5 · (1 − ⟨e, key_k⟩)) · [label_k = q].
  The reference forms the 2048 × 100000 table of exponential weights and multiplies it by the one-hot table of the
  labels.  The kernel walks a 4 × 50 grid: for each tile of 512 query rows it starts a 512 × 400 running block at the
  text logits, adds the weighted one-hot sum of 2000 support rows at each of fifty steps, and writes the block out
  after the last step.

  On the extended reals a change of float format is the identity and a matrix product is the plain sum over the
  contracted axis, so both programs compute the same terms; they differ only in that the kernel sums the support rows
  fifty tiles in turn, each multiplied by the literal 1.0, into a value that already holds the text logit.  Addition
  of extended reals is associative and commutative and 1 is a left unit of their product, which is all that joins the
  two sides: no input needs to be finite for it, and the precondition is never opened.

  The modules: Spec (the logit and the tiling law, free of both programs), Pieces (what one step's stores leave),
  Payload (the stored values at an entry), Blocks (a step's input blocks as entries of the arrays), Running (the
  running block after each step, by induction on the step, and the result array), Reference (the reference's array
  is the same function).  The idealization rewrote nothing, so that conjunct is trivial; the three frames are the
  runs themselves with the value dropped.
-/
import proofs.«145298_j42107859370333_1_alg».proof.Defs
import proofs.«145298_j42107859370333_1_alg».proof.Proof.Gen.Kernel
import proofs.«145298_j42107859370333_1_alg».proof.Proof.Gen.Kernel.Skeleton
import proofs.«145298_j42107859370333_1_alg».proof.Proof.Gen.Kernel.Launch
import proofs.«145298_j42107859370333_1_alg».proof.Proof.Gen.Kernel.Points
import proofs.«145298_j42107859370333_1_alg».proof.Proof.Gen.Kernel.Frame
import proofs.«145298_j42107859370333_1_alg».proof.Proof.Gen.KernelIdeal
import proofs.«145298_j42107859370333_1_alg».proof.Proof.Gen.KernelIdeal.Skeleton
import proofs.«145298_j42107859370333_1_alg».proof.Proof.Gen.KernelIdeal.Launch
import proofs.«145298_j42107859370333_1_alg».proof.Proof.Gen.KernelIdeal.Points
import proofs.«145298_j42107859370333_1_alg».proof.Proof.Gen.KernelIdeal.Frame
import proofs.«145298_j42107859370333_1_alg».proof.Proof.Gen.ReferenceIdeal
import proofs.«145298_j42107859370333_1_alg».proof.Proof.Gen.Pre_finite_inputs
import proofs.«145298_j42107859370333_1_alg».proof.Proof.Gen.KernelIdeal.Value
import proofs.«145298_j42107859370333_1_alg».proof.Proof.Gen.ReferenceIdeal.Run
import proofs.«145298_j42107859370333_1_alg».proof.Proof.Gen.ReferenceIdeal.Read
import proofs.«145298_j42107859370333_1_alg».proof.Proof.Running
import proofs.«145298_j42107859370333_1_alg».proof.Proof.Reference
import Idealize.ShloMosaic.Adequacy
import Idealize.ShloMosaic.Init

noncomputable section

namespace Cert.Proof

open Idealize.ShloMosaic Idealize.SL.Sem

/-- The kernel as printed runs to the end and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the value of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the kernel was read on the extended reals. -/
theorem preserves : Cert.preserves_Kernel_KernelIdeal := trivial

/-- From arguments that agree, both programs end with the array whose entry (r, q) is the logit of query row r for
    class q: the kernel by the running block's invariant, the reference operation by operation. -/
theorem algebraic : Cert.algebraic_KernelIdeal_ReferenceIdeal := by
  intro m ρ m' ρ' _ hagree
  refine ⟨fun c => Cert.KernelIdeal.Running.answer m c, Cert.KernelIdeal.Running.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.Whole.reference_is_result,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
